-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x9 : Shape := ⟨2, ![8000000, 9]⟩
abbrev S1600000 : Shape := ⟨1, ![1600000]⟩
abbrev S50000x64 : Shape := ⟨2, ![50000, 64]⟩
abbrev S1600000x64 : Shape := ⟨2, ![1600000, 64]⟩
abbrev S64x9 : Shape := ⟨2, ![64, 9]⟩
abbrev S9 : Shape := ⟨1, ![9]⟩
abbrev S9x64 : Shape := ⟨2, ![9, 64]⟩
abbrev S64 : Shape := ⟨1, ![64]⟩
abbrev S8000000 : Shape := ⟨1, ![8000000]⟩
abbrev S_ : Shape := ⟨0, ![]⟩

class Facts : Prop where
  bcast_S_S8000000x9 : S_.BroadcastsInDim S8000000x9 (![] : Fin 0 → Fin S8000000x9.rank)
  reducesTo_S8000000x9_S_d0_1 : S8000000x9.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S50000x64 : S_.BroadcastsInDim S50000x64 (![] : Fin 0 → Fin S50000x64.rank)
  reducesTo_S50000x64_S_d0_1 : S50000x64.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S64x9 : S_.BroadcastsInDim S64x9 (![] : Fin 0 → Fin S64x9.rank)
  reducesTo_S64x9_S_d0_1 : S64x9.ReducesTo [0, 1] S_
  bcast_S_S9 : S_.BroadcastsInDim S9 (![] : Fin 0 → Fin S9.rank)
  reducesTo_S9_S_d0 : S9.ReducesTo [0] S_
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S9x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S9x64 .f32 := Host.absf main_arg8
  let main_cst_14 : FVec F S_ .f32 := constant S_ .f32 0x7F800000#32
  let main_v40 : FVec F S9x64 .f32 := broadcastInDim S9x64 ![] bcast_S_S9x64 main_cst_14
  let main_v41 : IVec S9x64 1 := cmpf .olt main_v39 main_v40
  let main_c_15 : IVec S_ 1 := constantI S_ 1 1#1
  let main_v42 : IVec S_ 1 := (fun x v => Host.reduce IntOp.andi x v reducesTo_S9x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x9 .f32) (main_arg5 : FVec F S9 .f32) (main_arg6 : FVec F S9x64 .f32) (main_arg7 : FVec F S64 .f32) (main_arg8 : FVec F S9x64 .f32) (main_arg9 : FVec F S64 .f32) (main_v13 : IVec S_ 1) (main_v16 : IVec S1600000x64 1) : IVec S_ 1 :=
  let main_c_5 : IVec S_ 1 := constantI S_ 1 1#1
  let main_v17 : IVec S_ 1 := (fun x v => Host.reduce IntOp.andi x v reducesTo_S1600000x64_S_d0_1 h_S_) main_v16 main_c_5
  let main_v18 : IVec S_ 1 := andi main_v13 main_v17
  let main_v19 : FVec F S64x9 .f32 := Host.absf main_arg4
  let main_cst_6 : FVec F S_ .f32 := constant S_ .f32 0x7F800000#32
  let main_v20 : FVec F S64x9 .f32 := broadcastInDim S64x9 ![] bcast_S_S64x9 main_cst_6
  let main_v21 : IVec S64x9 1 := cmpf .olt main_v19 main_v20
  let main_c_7 : IVec S_ 1 := constantI S_ 1 1#1
  let main_v22 : IVec S_ 1 := (fun x v => Host.reduce IntOp.andi x v reducesTo_S64x9_S_d0_1 h_S_) main_v21 main_c_7
  let main_v23 : IVec S_ 1 := andi main_v18 main_v22
  let main_v24 : FVec F S9 .f32 := Host.absf main_arg5
  let main_cst_8 : FVec F S_ .f32 := constant S_ .f32 0x7F800000#32
  let main_v25 : FVec F S9 .f32 := broadcastInDim S9 ![] bcast_S_S9 main_cst_8
  let main_v26 : IVec S9 1 := cmpf .olt main_v24 main_v25
  let main_c_9 : IVec S_ 1 := constantI S_ 1 1#1
  let main_v27 : IVec S_ 1 := (fun x v => Host.reduce IntOp.andi x v reducesTo_S9_S_d0 h_S_) main_v26 main_c_9
  let main_v28 : IVec S_ 1 := andi main_v23 main_v27
  let main_v29 : FVec F S9x64 .f32 := Host.absf main_arg6
  let main_cst_10 : FVec F S_ .f32 := constant S_ .f32 0x7F800000#32
  let main_v30 : FVec F S9x64 .f32 := broadcastInDim S9x64 ![] bcast_S_S9x64 main_cst_10
  let main_v31 : IVec S9x64 1 := cmpf .olt main_v29 main_v30
  let main_c_11 : IVec S_ 1 := constantI S_ 1 1#1
  let main_v32 : IVec S_ 1 := (fun x v => Host.reduce IntOp.andi x v reducesTo_S9x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8000000x9 .f32) (main_arg1 : FVec F S1600000 .f32) (main_arg2 : FVec F S50000x64 .f32) (main_arg3 : FVec F S1600000x64 .f32) (main_arg4 : FVec F S64x9 .f32) (main_arg5 : FVec F S9 .f32) (main_arg6 : FVec F S9x64 .f32) (main_arg7 : FVec F S64 .f32) (main_arg8 : FVec F S9x64 .f32) (main_arg9 : FVec F S64 .f32) (main_arg10 : IVec S1600000 32) (main_arg11 : IVec S8000000 32) (main_arg12 : IVec S8000000 32) (main_arg13 : IVec S8000000 32) : IVec S_ 1 :=
  let main_v0 : FVec F S8000000x9 .f32 := Host.absf main_arg0
  let main_cst : FVec F S_ .f32 := constant S_ .f32 0x7F800000#32
  let main_v1 : FVec F S8000000x9 .f32 := broadcastInDim S8000000x9 ![] bcast_S_S8000000x9 main_cst
  let main_v2 : IVec S8000000x9 1 := cmpf .olt main_v0 main_v1
  let main_c : IVec S_ 1 := constantI S_ 1 1#1
  let main_v3 : IVec S_ 1 := (fun x v => Host.reduce IntOp.andi x v reducesTo_S8000000x9_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S1600000x64 .f32 := Host.absf main_arg3
  let main_cst_4 : FVec F S_ .f32 := constant S_ .f32 0x7F800000#32
  let main_v15 : FVec F S1600000x64 .f32 := broadcastInDim S1600000x64 ![] bcast_S_S1600000x64 main_cst_4
  let main_v16 : IVec S1600000x64 1 := cmpf .olt main_v14 main_v15
  fn_part1 (F := F) main_arg4 main_arg5 main_arg6 main_arg7 main_arg8 main_arg9 main_v13 main_v16
-- ==== Kernel.lean ====
abbrev S8000000x9 : Shape := ⟨2, ![8000000, 9]⟩
abbrev S1600000 : Shape := ⟨1, ![1600000]⟩
abbrev S50000x64 : Shape := ⟨2, ![50000, 64]⟩
abbrev S1600000x64 : Shape := ⟨2, ![1600000, 64]⟩
abbrev S64x9 : Shape := ⟨2, ![64, 9]⟩
abbrev S9 : Shape := ⟨1, ![9]⟩
abbrev S9x64 : Shape := ⟨2, ![9, 64]⟩
abbrev S64 : Shape := ⟨1, ![64]⟩
abbrev S8000000 : Shape := ⟨1, ![8000000]⟩
abbrev S1x9 : Shape := ⟨2, ![1, 9]⟩
abbrev S50000x9 : Shape := ⟨2, ![50000, 9]⟩
abbrev S5000x64 : Shape := ⟨2, ![5000, 64]⟩
abbrev S5000x9 : Shape := ⟨2, ![5000, 9]⟩
abbrev S_ : Shape := ⟨0, ![]⟩
abbrev S8000000x1 : Shape := ⟨2, ![8000000, 1]⟩
abbrev S1600000x9 : Shape := ⟨2, ![1600000, 9]⟩
abbrev S1x64 : Shape := ⟨2, ![1, 64]⟩

abbrev nBuf : Space → Nat
  | .hbm => 42
  | .vmem => 22
  | .smem => 0
  | _ => 0

abbrev bufTy : (tb : Table) → Fin (tcTables nBuf tb) → BufTy
  | .hbm, ⟨0, _⟩ => ⟨S8000000x9, .f32⟩
  | .hbm, ⟨1, _⟩ => ⟨S1600000, .f32⟩
  | .hbm, ⟨2, _⟩ => ⟨S50000x64, .f32⟩
  | .hbm, ⟨3, _⟩ => ⟨S1600000x64, .f32⟩
  | .hbm, ⟨4, _⟩ => ⟨S64x9, .f32⟩
  | .hbm, ⟨5, _⟩ => ⟨S9, .f32⟩
  | .hbm, ⟨6, _⟩ => ⟨S9x64, .f32⟩
  | .hbm, ⟨7, _⟩ => ⟨S64, .f32⟩
  | .hbm, ⟨8, _⟩ => ⟨S9x64, .f32⟩
  | .hbm, ⟨9, _⟩ => ⟨S64, .f32⟩
  | .hbm, ⟨10, _⟩ => ⟨S1600000, .i32⟩
  | .hbm, ⟨11, _⟩ => ⟨S8000000, .i32⟩
  | .hbm, ⟨12, _⟩ => ⟨S8000000, .i32⟩
  | .hbm, ⟨13, _⟩ => ⟨S8000000, .i32⟩
  | .hbm, ⟨14, _⟩ => ⟨S1x9, .f32⟩
  | .hbm, ⟨15, _⟩ => ⟨S50000x9, .f32⟩
  | .hbm, ⟨16, _⟩ => ⟨S_, .i32⟩
  | .hbm, ⟨17, _⟩ => ⟨S8000000, .i32⟩
  | .hbm, ⟨18, _⟩ => ⟨S8000000, .i1⟩
  | .hbm, ⟨19, _⟩ => ⟨S_, .i32⟩
  | .hbm, ⟨20, _⟩ => ⟨S8000000, .i32⟩
  | .hbm, ⟨21, _⟩ => ⟨S8000000, .i32⟩
  | .hbm, ⟨22, _⟩ => ⟨S8000000, .i32⟩
  | .hbm, ⟨23, _⟩ => ⟨S8000000x1, .i32⟩
  | .hbm, ⟨24, _⟩ => ⟨S8000000, .i32⟩
  | .hbm, ⟨25, _⟩ => ⟨S_, .i32⟩
  | .hbm, ⟨26, _⟩ => ⟨S8000000, .i32⟩
  | .hbm, ⟨27, _⟩ => ⟨S8000000, .i1⟩
  | .hbm, ⟨28, _⟩ => ⟨S_, .i32⟩
  | .hbm, ⟨29, _⟩ => ⟨S8000000, .i32⟩
  | .hbm, ⟨30, _⟩ => ⟨S8000000, .i32⟩
  | .hbm, ⟨31, _⟩ => ⟨S8000000, .i32⟩
  | .hbm, ⟨32, _⟩ => ⟨S8000000x1, .i32⟩
  | .hbm, ⟨33, _⟩ => ⟨S8000000x9, .f32⟩
  | .hbm, ⟨34, _⟩ => ⟨S8000000x9, .f32⟩
  | .hbm, ⟨35, _⟩ => ⟨S_, .f32⟩
  | .hbm, ⟨36, _⟩ => ⟨S1600000x9, .f32⟩
  | .hbm, ⟨37, _⟩ => ⟨S8000000x1, .i32⟩
  | .hbm, ⟨38, _⟩ => ⟨S1600000x9, .f32⟩
  | .hbm, ⟨39, _⟩ => ⟨S1x64, .f32⟩
  | .hbm, ⟨40, _⟩ => ⟨S1x64, .f32⟩
  | .hbm, ⟨41, _⟩ => ⟨S1600000x64, .f32⟩
  | .local _ .vmem, ⟨0, _⟩ => ⟨S5000x64, .f32⟩
  | .local _ .vmem, ⟨1, _⟩ => ⟨S5000x64, .f32⟩
  | .local _ .vmem, ⟨2, _⟩ => ⟨S64x9, .f32⟩
  | .local _ .vmem, ⟨3, _⟩ => ⟨S1x9, .f32⟩
  | .local _ .vmem, ⟨4, _⟩ => ⟨S5000x9, .f32⟩
  | .local _ .vmem, ⟨5, _⟩ => ⟨S5000x9, .f32⟩
  | .local _ .vmem, ⟨6, _⟩ => ⟨S5000x9, .f32⟩
  | .local _ .vmem, ⟨7, _⟩ => ⟨S5000x9, .f32⟩
  | .local _ .vmem, ⟨8, _⟩ => ⟨S5000x9, .f32⟩
  | .local _ .vmem, ⟨9, _⟩ => ⟨S5000x9, .f32⟩
  | .local _ .vmem, ⟨10, _⟩ => ⟨S5000x9, .f32⟩
  | .local _ .vmem, ⟨11, _⟩ => ⟨S5000x9, .f32⟩
  | .local _ .vmem, ⟨12, _⟩ => ⟨S5000x9, .f32⟩
  | .local _ .vmem, ⟨13, _⟩ => ⟨S5000x9, .f32⟩
  | .local _ .vmem, ⟨14, _⟩ => ⟨S5000x64, .f32⟩
  | .local _ .vmem, ⟨15, _⟩ => ⟨S5000x64, .f32⟩
  | .local _ .vmem, ⟨16, _⟩ => ⟨S9x64, .f32⟩
  | .local _ .vmem, ⟨17, _⟩ => ⟨S1x64, .f32⟩
  | .local _ .vmem, ⟨18, _⟩ => ⟨S9x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S8000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1600], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![320], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S9x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S9x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S9_S1x9 : S9.ShapeCasts S1x9
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x9_S64x9_0_0 : ∀ a, (![0, 0] : Fin 2 → Nat) a + S64x9.size a ≤ S64x9.size a
  h_S64x9 : 0 < S64x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S5000x9 : S1x9.Broadcasts S5000x9
  inb_S5000x9_S5000x9_0_0 : ∀ a, (![0, 0] : Fin 2 → Nat) a + S5000x9.size a ≤ S5000x9.size a
  h_S5000x9 : 0 < S5000x9.numel
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S5000x9_S5000x9 : S5000x9.ShapeCasts S5000x9
  bcast_S_S1600000x9 : S_.BroadcastsInDim S1600000x9 (![] : Fin 0 → Fin S1600000x9.rank)
  shapeCasts_S64_S1x64 : S64.ShapeCasts S1x64
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x9_S5000x9_1_0_0_1_n_n_wf : DotDims.WF S5000x64 S64x9 S5000x9 [1] [0] [0] [1] [] []
  gather_S1600000_S8000000x1_S8000000_n_0_n_n_0_1_1_wf : GatherDims.WF S1600000 S8000000x1 S8000000 [] [0] [] [0] [] 1 ![1]
  gather_S50000x9_S8000000x1_S8000000x9_1_0_n_n_0_1_19_wf : GatherDims.WF S50000x9 S8000000x1 S8000000x9 [1] [0] [] [0] [] 1 ![1, 9]
  scatter_S1600000x9_S8000000x1_S8000000x9_1_0_0_1_wf : ScatterDims.WF S1600000x9 S8000000x1 S8000000x9 [1] [0] [0] 1
  dot_S5000x9_S9x64_S5000x64_1_0_0_1_n_n_wf : DotDims.WF S5000x9 S9x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x9.size a ≤ S64x9.size a
  hwx0_1 : ∀ i : grid0.Coords, EltTy.bits .f32 = 32 ∨ (Rect.block (s := S64x9) S64x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9.size a ≤ S1x9.size a
  hwx0_2 : ∀ i : grid0.Coords, EltTy.bits .f32 = 32 ∨ (Rect.block (s := S1x9) S1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x9.size a ≤ S50000x9.size a
  hwx0_3 : ∀ i : grid0.Coords, EltTy.bits .f32 = 32 ∨ (Rect.block (s := S50000x9) S5000x9.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x9.size a ≤ S8000000x9.size a
  hwx1_0 : ∀ i : grid1.Coords, EltTy.bits .f32 = 32 ∨ (Rect.block (s := S8000000x9) S5000x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x9.size a ≤ S8000000x9.size a
  hwx1_1 : ∀ i : grid1.Coords, EltTy.bits .f32 = 32 ∨ (Rect.block (s := S8000000x9) S5000x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x9.size a ≤ S8000000x9.size a
  hwx1_2 : ∀ i : grid1.Coords, EltTy.bits .f32 = 32 ∨ (Rect.block (s := S8000000x9) S5000x9.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x9.size a ≤ S1600000x9.size a
  hwx2_0 : ∀ i : grid2.Coords, EltTy.bits .f32 = 32 ∨ (Rect.block (s := S1600000x9) S5000x9.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S1600000x64.size a
  hwx2_1 : ∀ i : grid2.Coords, EltTy.bits .f32 = 32 ∨ (Rect.block (s := S1600000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S9x64.size a ≤ S9x64.size a
  hwx2_2 : ∀ i : grid2.Coords, EltTy.bits .f32 = 32 ∨ (Rect.block (s := S9x64) S9x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S9x64.size a ≤ S9x64.size a
  hwx2_4 : ∀ i : grid2.Coords, EltTy.bits .f32 = 32 ∨ (Rect.block (s := S9x64) S9x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S1600000x64.size a
  hwx2_6 : ∀ i : grid2.Coords, EltTy.bits .f32 = 32 ∨ (Rect.block (s := S1600000x64) S5000x64.size (cc2_transform_6 i) (hinb2_6 i)).WholeWords (EltTy.packing .f32)

variable [Facts₀]

def dot_S5000x64_S64x9_S5000x9_1_0_0_1_n_n : DotDims S5000x64 S64x9 S5000x9 where
  lhsContracting := [1]
  rhsContracting := [0]
  lhsNonContracting := [0]
  rhsNonContracting := [1]
  lhsBatch := []
  rhsBatch := []
  wf := dot_S5000x64_S64x9_S5000x9_1_0_0_1_n_n_wf
def gather_S1600000_S8000000x1_S8000000_n_0_n_n_0_1_1 : GatherDims S1600000 S8000000x1 S8000000 where
  offsetDims := []
  collapsedSliceDims := [0]
  operandBatchingDims := []
  startIndicesBatchingDims := []
  startIndexMap := [0]
  indexVectorDim := 1
  sliceSizes := ![1]
  wf := gather_S1600000_S8000000x1_S8000000_n_0_n_n_0_1_1_wf
def gather_S50000x9_S8000000x1_S8000000x9_1_0_n_n_0_1_19 : GatherDims S50000x9 S8000000x1 S8000000x9 where
  offsetDims := [1]
  collapsedSliceDims := [0]
  operandBatchingDims := []
  startIndicesBatchingDims := []
  startIndexMap := [0]
  indexVectorDim := 1
  sliceSizes := ![1, 9]
  wf := gather_S50000x9_S8000000x1_S8000000x9_1_0_n_n_0_1_19_wf
def scatter_S1600000x9_S8000000x1_S8000000x9_1_0_0_1 : ScatterDims S1600000x9 S8000000x1 S8000000x9 where
  updateWindowDims := [1]
  insertedWindowDims := [0]
  scatterDimsToOperandDims := [0]
  indexVectorDim := 1
  wf := scatter_S1600000x9_S8000000x1_S8000000x9_1_0_0_1_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x9.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S9x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S9x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8000000x9 : Shape := ⟨2, ![8000000, 9]⟩
abbrev S1600000 : Shape := ⟨1, ![1600000]⟩
abbrev S50000x64 : Shape := ⟨2, ![50000, 64]⟩
abbrev S1600000x64 : Shape := ⟨2, ![1600000, 64]⟩
abbrev S64x9 : Shape := ⟨2, ![64, 9]⟩
abbrev S9 : Shape := ⟨1, ![9]⟩
abbrev S9x64 : Shape := ⟨2, ![9, 64]⟩
abbrev S64 : Shape := ⟨1, ![64]⟩
abbrev S8000000 : Shape := ⟨1, ![8000000]⟩
abbrev S50000x9 : Shape := ⟨2, ![50000, 9]⟩
abbrev S1x9 : Shape := ⟨2, ![1, 9]⟩
abbrev S_ : Shape := ⟨0, ![]⟩
abbrev S8000000x1 : Shape := ⟨2, ![8000000, 1]⟩
abbrev S1600000x9 : Shape := ⟨2, ![1600000, 9]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S8000000x9, .f32⟩
  | .hbm, ⟨1, _⟩ => ⟨S1600000, .f32⟩
  | .hbm, ⟨2, _⟩ => ⟨S50000x64, .f32⟩
  | .hbm, ⟨3, _⟩ => ⟨S1600000x64, .f32⟩
  | .hbm, ⟨4, _⟩ => ⟨S64x9, .f32⟩
  | .hbm, ⟨5, _⟩ => ⟨S9, .f32⟩
  | .hbm, ⟨6, _⟩ => ⟨S9x64, .f32⟩
  | .hbm, ⟨7, _⟩ => ⟨S64, .f32⟩
  | .hbm, ⟨8, _⟩ => ⟨S9x64, .f32⟩
  | .hbm, ⟨9, _⟩ => ⟨S64, .f32⟩
  | .hbm, ⟨10, _⟩ => ⟨S1600000, .i32⟩
  | .hbm, ⟨11, _⟩ => ⟨S8000000, .i32⟩
  | .hbm, ⟨12, _⟩ => ⟨S8000000, .i32⟩
  | .hbm, ⟨13, _⟩ => ⟨S8000000, .i32⟩
  | .hbm, ⟨14, _⟩ => ⟨S50000x9, .f32⟩
  | .hbm, ⟨15, _⟩ => ⟨S1x9, .f32⟩
  | .hbm, ⟨16, _⟩ => ⟨S50000x9, .f32⟩
  | .hbm, ⟨17, _⟩ => ⟨S50000x9, .f32⟩
  | .hbm, ⟨18, _⟩ => ⟨S50000x9, .f32⟩
  | .hbm, ⟨19, _⟩ => ⟨S50000x9, .f32⟩
  | .hbm, ⟨20, _⟩ => ⟨S_, .f32⟩
  | .hbm, ⟨21, _⟩ => ⟨S50000x9, .f32⟩
  | .hbm, ⟨22, _⟩ => ⟨S50000x9, .f32⟩
  | .hbm, ⟨23, _⟩ => ⟨S_, .f32⟩
  | .hbm, ⟨24, _⟩ => ⟨S50000x9, .f32⟩
  | .hbm, ⟨25, _⟩ => ⟨S50000x9, .f32⟩
  | .hbm, ⟨26, _⟩ => ⟨S_, .i32⟩
  | .hbm, ⟨27, _⟩ => ⟨S8000000, .i32⟩
  | .hbm, ⟨28, _⟩ => ⟨S8000000, .i1⟩
  | .hbm, ⟨29, _⟩ => ⟨S_, .i32⟩
  | .hbm, ⟨30, _⟩ => ⟨S8000000, .i32⟩
  | .hbm, ⟨31, _⟩ => ⟨S8000000, .i32⟩
  | .hbm, ⟨32, _⟩ => ⟨S8000000, .i32⟩
  | .hbm, ⟨33, _⟩ => ⟨S8000000x1, .i32⟩
  | .hbm, ⟨34, _⟩ => ⟨S8000000, .i32⟩
  | .hbm, ⟨35, _⟩ => ⟨S_, .i32⟩
  | .hbm, ⟨36, _⟩ => ⟨S8000000, .i32⟩
  | .hbm, ⟨37, _⟩ => ⟨S8000000, .i1⟩
  | .hbm, ⟨38, _⟩ => ⟨S_, .i32⟩
  | .hbm, ⟨39, _⟩ => ⟨S8000000, .i32⟩
  | .hbm, ⟨40, _⟩ => ⟨S8000000, .i32⟩
  | .hbm, ⟨41, _⟩ => ⟨S8000000, .i32⟩
  | .hbm, ⟨42, _⟩ => ⟨S8000000x1, .i32⟩
  | .hbm, ⟨43, _⟩ => ⟨S8000000x9, .f32⟩
  | .hbm, ⟨44, _⟩ => ⟨S8000000x9, .f32⟩
  | .hbm, ⟨45, _⟩ => ⟨S_, .i32⟩
  | .hbm, ⟨46, _⟩ => ⟨S8000000, .i32⟩
  | .hbm, ⟨47, _⟩ => ⟨S8000000, .i1⟩
  | .hbm, ⟨48, _⟩ => ⟨S_, .i32⟩
  | .hbm, ⟨49, _⟩ => ⟨S8000000, .i32⟩
  | .hbm, ⟨50, _⟩ => ⟨S8000000, .i32⟩
  | .hbm, ⟨51, _⟩ => ⟨S8000000, .i32⟩
  | .hbm, ⟨52, _⟩ => ⟨S8000000x1, .i32⟩
  | .hbm, ⟨53, _⟩ => ⟨S8000000, .f32⟩
  | .hbm, ⟨54, _⟩ => ⟨S_, .i32⟩
  | .hbm, ⟨55, _⟩ => ⟨S8000000, .i32⟩
  | .hbm, ⟨56, _⟩ => ⟨S8000000, .i1⟩
  | .hbm, ⟨57, _⟩ => ⟨S_, .i32⟩
  | .hbm, ⟨58, _⟩ => ⟨S8000000, .i32⟩
  | .hbm, ⟨59, _⟩ => ⟨S8000000, .i32⟩
  | .hbm, ⟨60, _⟩ => ⟨S8000000, .i32⟩
  | .hbm, ⟨61, _⟩ => ⟨S8000000x1, .i32⟩
  | .hbm, ⟨62, _⟩ => ⟨S8000000, .f32⟩
  | .hbm, ⟨63, _⟩ => ⟨S8000000, .f32⟩
  | .hbm, ⟨64, _⟩ => ⟨S8000000x1, .f32⟩
  | .hbm, ⟨65, _⟩ => ⟨S8000000x9, .f32⟩
  | .hbm, ⟨66, _⟩ => ⟨S8000000x9, .f32⟩
  | .hbm, ⟨67, _⟩ => ⟨S_, .f32⟩
  | .hbm, ⟨68, _⟩ => ⟨S1600000x9, .f32⟩
  | .hbm, ⟨69, _⟩ => ⟨S8000000x1, .i32⟩
  | .hbm, ⟨70, _⟩ => ⟨S1600000x9, .f32⟩
  | .hbm, ⟨71, _⟩ => ⟨S1600000x64, .f32⟩
  | .hbm, ⟨72, _⟩ => ⟨S1x64, .f32⟩
  | .hbm, ⟨73, _⟩ => ⟨S1600000x64, .f32⟩
  | .hbm, ⟨74, _⟩ => ⟨S1600000x64, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S1600000x64, .f32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S1x64, .f32⟩
  | .hbm, ⟨86, _⟩ => ⟨S1600000x64, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S1600000x64, .f32⟩
  | .hbm, ⟨95, _⟩ => ⟨S1600000x64, .f32⟩
  | .hbm, ⟨96, _⟩ => ⟨S1600000x64, .f32⟩
  | .hbm, ⟨97, _⟩ => ⟨S1600000x64, .f32⟩
  | _, _ => ⟨S8000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  bcast_S_S50000x9 : S_.BroadcastsInDim S50000x9 (![] : Fin 0 → Fin S50000x9.rank)
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S8000000x1_S8000000x9_0_1 : S8000000x1.BroadcastsInDim S8000000x9 (![0, 1] : Fin 2 → Fin S8000000x9.rank)
  bcast_S_S1600000x9 : S_.BroadcastsInDim S1600000x9 (![] : Fin 0 → Fin S1600000x9.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  dot_S50000x64_S64x9_S50000x9_1_0_0_1_n_n_wf : DotDims.WF S50000x64 S64x9 S50000x9 [1] [0] [0] [1] [] []
  gather_S1600000_S8000000x1_S8000000_n_0_n_n_0_1_1_wf : GatherDims.WF S1600000 S8000000x1 S8000000 [] [0] [] [0] [] 1 ![1]
  gather_S50000x9_S8000000x1_S8000000x9_1_0_n_n_0_1_19_wf : GatherDims.WF S50000x9 S8000000x1 S8000000x9 [1] [0] [] [0] [] 1 ![1, 9]
  scatter_S1600000x9_S8000000x1_S8000000x9_1_0_0_1_wf : ScatterDims.WF S1600000x9 S8000000x1 S8000000x9 [1] [0] [0] 1
  dot_S1600000x9_S9x64_S1600000x64_1_0_0_1_n_n_wf : DotDims.WF S1600000x9 S9x64 S1600000x64 [1] [0] [0] [1] [] []

variable [Facts₀]

def dot_S50000x64_S64x9_S50000x9_1_0_0_1_n_n : DotDims S50000x64 S64x9 S50000x9 where
  lhsContracting := [1]
  rhsContracting := [0]
  lhsNonContracting := [0]
  rhsNonContracting := [1]
  lhsBatch := []
  rhsBatch := []
  wf := dot_S50000x64_S64x9_S50000x9_1_0_0_1_n_n_wf
def gather_S1600000_S8000000x1_S8000000_n_0_n_n_0_1_1 : GatherDims S1600000 S8000000x1 S8000000 where
  offsetDims := []
  collapsedSliceDims := [0]
  operandBatchingDims := []
  startIndicesBatchingDims := []
  startIndexMap := [0]
  indexVectorDim := 1
  sliceSizes := ![1]
  wf := gather_S1600000_S8000000x1_S8000000_n_0_n_n_0_1_1_wf
def gather_S50000x9_S8000000x1_S8000000x9_1_0_n_n_0_1_19 : GatherDims S50000x9 S8000000x1 S8000000x9 where
  offsetDims := [1]
  collapsedSliceDims := [0]
  operandBatchingDims := []
  startIndicesBatchingDims := []
  startIndexMap := [0]
  indexVectorDim := 1
  sliceSizes := ![1, 9]
  wf := gather_S50000x9_S8000000x1_S8000000x9_1_0_n_n_0_1_19_wf
def scatter_S1600000x9_S8000000x1_S8000000x9_1_0_0_1 : ScatterDims S1600000x9 S8000000x1 S8000000x9 where
  updateWindowDims := [1]
  insertedWindowDims := [0]
  scatterDimsToOperandDims := [0]
  indexVectorDim := 1
  wf := scatter_S1600000x9_S8000000x1_S8000000x9_1_0_0_1_wf
def dot_S1600000x9_S9x64_S1600000x64_1_0_0_1_n_n : DotDims S1600000x9 S9x64 S1600000x64 where
  lhsContracting := [1]
  rhsContracting := [0]
  lhsNonContracting := [0]
  rhsNonContracting := [1]
  lhsBatch := []
  rhsBatch := []
  wf := dot_S1600000x9_S9x64_S1600000x64_1_0_0_1_n_n_wf

class Facts : Prop extends Facts₀ where

variable [Facts]
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.AtomsRegion.lean ====
/-
  The first kernel region: the per-atom gate over the nine basis channels.
  Each of the 10 grid points takes a block of 5000 rows of the [50000, 64] node features, the whole [64, 9] weight and
  the [1, 9] bias, and writes the block of the same rows of the [50000, 9] result: at row r and channel j the logistic of
  the sum over k of feature (r, k) times weight (k, j), plus bias j. (Over the extended reals a change of float format
  is the identity, so the bf16 casts disappear.) The blocks tile the result, so the result array ends as that function
  of the three whole arrays as the region finds them.
-/
import proofs.«409169_j59442347376884_1_alg».proof.Proof.Gen.KernelIdeal.Frame
import Idealize.ShloMosaic.Lib.Pipeline.Value
import Idealize.ShloMosaic.Lib.ValueIdx
import proofs.«409169_j59442347376884_1_alg».proof.Proof.LibContract
set_option maxRecDepth 16384

noncomputable section

namespace Cert.KernelIdeal.Atoms

open Idealize.ShloMosaic Idealize.ShloMosaic.TcCoe Idealize.ShloMosaic.ValueIdx Idealize.SL.Sem Cert.KernelIdeal Cert.KernelIdeal.Gen
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The gate of row r, channel j, for a feature matrix of any number n of rows. -/
def gateAt {n : Nat} (x : (⟨2, ![n, 64]⟩ : Shape).Idx → EReal) (w : S64x9.Idx → EReal) (b : S1x9.Idx → EReal)
    (r : Fin n) (j : Fin 9) : EReal :=
  Ideal.logistic ((∑ k : Fin 64, x (ix2 r k) * w (ix2 k j)) + b (ix2 0 j))

/-- The whole-array function. -/
def gates (x : S50000x64.Idx → EReal) (w : S64x9.Idx → EReal) (b : S1x9.Idx → EReal) : S50000x9.Idx → EReal :=
  fun i => gateAt x w b (i 0) (i 1)

/-- The body's stored value at row p, channel q of its block is the gate of the loaded blocks there. -/
theorem body_eq (x0 : Vec Ideal S5000x64 .f32) (x1 : Vec Ideal S64x9 .f32) (x2 : Vec Ideal S1x9 .f32) (p : Fin 5000) (q : Fin 9) :
    k0_pay1 (F := Ideal) x0 x1 x2 (ix2 p q) = gateAt x0 x1 x2 p q := by
  unfold k0_pay1 gateAt
  show Ideal.logistic (matmul (F := Ideal) dot_S5000x64_S64x9_S5000x9_1_0_0_1_n_n none (truncf .bf16 x0 bitsLt_bf16_f32) (truncf .bf16 x1 bitsLt_bf16_f32) (constant S5000x9 .f32 0x00000000#32) (ix2 p q)
      + broadcastTo S5000x9 (shapeCast S1x9 x2 shapeCasts_S1x9_S1x9) broadcasts_S1x9_S5000x9 (ix2 p q)) = _
  rw [Cert.LibContract.matmul_plain _ rfl rfl rfl rfl rfl rfl, shapeCast_self,
    broadcastTo_apply x2 broadcasts_S1x9_S5000x9 (ix2 p q) (ix2 0 q) (fun a => by
      match a with
      | ⟨0, _⟩ => rfl
      | ⟨1, _⟩ => rfl)]
  rfl

/-- At point t the feature and result windows sit at block row t, the weight and the bias at their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the gates of the three arrays. -/
theorem flushed_eq (c : Dev nD) (t : Fin cfg0.N) :
    (dat0 V c).flushed 3 t = ((cfg0.win 3).blk t).view.read (Elt Ideal) (gates (V c main_arg2) (V c main_arg4) (V c main_v0)) := by
  show (cfg0.win 3).cut (grid0.coords t) ((dat0 V c).after 3 t) = _
  rw [after0_3]
  unfold out0_3
  rw [View.canon_unit_zero zeros]
  simp only [View.ld_unit_zero (S := S5000x64) zeros, View.ld_unit_zero (S := S64x9) zeros, View.ld_unit_zero (S := S1x9) zeros]
  obtain ⟨e0, e1, e2, e3, e4, e5, e6, e7⟩ := index_facts t
  funext j
  obtain ⟨p, q, rfl⟩ : ∃ (p : Fin 5000) (q : Fin 9), j = ix2 p q := ⟨j 0, j 1, eq_ix2 j⟩
  refine (body_eq (iblk0 V c 0 t) (iblk0 V c 1 t) (iblk0 V c 2 t) p q).trans ?_
  show gateAt (fun y => V c main_arg2 (((cfg0.win 0).blk t).view.emb y)) (fun y => V c main_arg4 (((cfg0.win 1).blk t).view.emb y))
      (fun y => V c main_v0 (((cfg0.win 2).blk t).view.emb y)) p q
    = gateAt (V c main_arg2) (V c main_arg4) (V c main_v0) ((((cfg0.win 3).blk t).view.emb (ix2 p q)) 0) ((((cfg0.win 3).blk t).view.emb (ix2 p q)) 1)
  have hx (k : Fin 64) : ((cfg0.win 0).blk t).view.emb (ix2 p k)
      = ix2 ((((cfg0.win 3).blk t).view.emb (ix2 p q)) 0) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have hw (k : Fin 64) : ((cfg0.win 1).blk t).view.emb (ix2 k q)
      = ix2 k ((((cfg0.win 3).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 9 + 1 * q.val = win0_3.index t (1 : Fin 2) * 9 + 1 * q.val; omega
  have hb : ((cfg0.win 2).blk t).view.emb (ix2 0 q)
      = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 9 + 1 * q.val = win0_3.index t (1 : Fin 2) * 9 + 1 * q.val; omega
  unfold gateAt
  simp only [hx, hw, hb]
  rfl

/-- An index of the result is in point t's block iff each coordinate is in the block's range on its axis. -/
theorem mem_block (t : Fin cfg0.N) (i : S50000x9.Idx) :
    i ∈ ((cfg0.win 3).blk t).view.set ↔ ∀ a : Fin 2, win0_3.index t a * S5000x9.size a ≤ (i a).val ∧ (i a).val < win0_3.index t a * S5000x9.size a + S5000x9.size a := by
  show i ∈ ((View.whole main_v1).slice (win0_3.rect t)).set ↔ _
  rw [View.set_slice_whole, Rect.mem_set_unit]
  exact Iff.rfl

/-- Every index of the result is in the block of the point its row falls in: row r is in block r / 5000. -/
theorem covered (i : S50000x9.Idx) : ∃ t : Fin cfg0.N, (cfg0.win 3).flush t = true ∧ i ∈ ((cfg0.win 3).blk t).view.set := by
  have hi0 : (i 0).val < 50000 := (i 0).isLt
  have hi1 : (i 1).val < 9 := (i 1).isLt
  have hN : cfg0.N = 10 := by decide
  let t : Fin cfg0.N := ⟨(i 0).val / 5000, by rw [hN]; omega⟩
  obtain ⟨-, -, -, -, -, -, e6, e7⟩ := index_facts t
  have e6' : win0_3.index t (0 : Fin 2) = (i 0).val / 5000 := e6
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 9 ≤ (i 1).val ∧ (i 1).val < win0_3.index t (1 : Fin 2) * 9 + 9; omega

/-- The result array after the region: the gates of the three arrays as the region finds them. -/
theorem final (c : Dev nD) : (dat0 V c).arrAt 3 cfg0.N = gates (V c main_arg2) (V c main_arg4) (V c main_v0) :=
  (dat0 V c).arrAt_eq_of_cover 3 (gates (V c main_arg2) (V c main_arg4) (V c main_v0)) (fun t _ => flushed_eq V c t) covered

end Cert.KernelIdeal.Atoms

end
-- ==== Proof.BasisRegion.lean ====
/-
  The second kernel region: the three-body basis scaled by the gathered atom gates.
  Each of the 1600 grid points multiplies, entry by entry, a block of 5000 rows of the two [8000000, 9] operands and
  writes the block of the same rows of the result; the blocks tile the result, so the result array ends as the
  entrywise product of the two whole operands as the region finds them.
-/
import proofs.«409169_j59442347376884_1_alg».proof.Proof.Gen.KernelIdeal.Frame
import Idealize.ShloMosaic.Lib.Pipeline.Value
import Idealize.ShloMosaic.Lib.ValueIdx

set_option maxRecDepth 16384

noncomputable section

namespace Cert.KernelIdeal.Basis

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- The whole-array function: the entrywise product. -/
abbrev prod (a b : S8000000x9.Idx → Elt F .f32) : S8000000x9.Idx → Elt F .f32 := fun i => FloatOps.mulf (a i) (b i)

/-- The body's stored value is the entrywise product of its two loaded blocks (the shape cast is to the same shape). -/
theorem body_eq (x0 x1 : Vec F S5000x9 .f32) : k1_pay1 x0 x1 = mulf x0 x1 := by
  unfold k1_pay1
  rw [shapeCast_self]

/-- At point t all three windows sit at block row t, block column 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two operand arrays. -/
theorem flushed_eq (c : Dev nD) (t : Fin cfg1.N) :
    (dat1 V c).flushed 2 t = ((cfg1.win 2).blk t).view.read (Elt F) (prod (V c main_arg0) (V c main_v15)) := by
  show (cfg1.win 2).cut (grid1.coords t) ((dat1 V c).after 2 t) = _
  rw [after1_2]
  unfold out1_2
  rw [View.canon_unit_zero zeros]
  simp only [View.ld_unit_zero (S := S5000x9) zeros]
  rw [body_eq]
  obtain ⟨e0, e1, e2, e3, e4, e5⟩ := index_facts t
  funext j
  show FloatOps.mulf (V c main_arg0 (((cfg1.win 0).blk t).view.emb j)) (V c main_v15 (((cfg1.win 1).blk t).view.emb j))
    = FloatOps.mulf (V c main_arg0 (((cfg1.win 2).blk t).view.emb j)) (V c main_v15 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 9 + 1 * (j 1).val = win1_2.index t (1 : Fin 2) * 9 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 9 + 1 * (j 1).val = win1_2.index t (1 : Fin 2) * 9 + 1 * (j 1).val; omega
  rw [h0, h1]

/-- An index of the result is in point t's block iff each coordinate is in the block's range on its axis. -/
theorem mem_block (t : Fin cfg1.N) (i : S8000000x9.Idx) :
    i ∈ ((cfg1.win 2).blk t).view.set ↔ ∀ a : Fin 2, win1_2.index t a * S5000x9.size a ≤ (i a).val ∧ (i a).val < win1_2.index t a * S5000x9.size a + S5000x9.size a := by
  show i ∈ ((View.whole main_v16).slice (win1_2.rect t)).set ↔ _
  rw [View.set_slice_whole, Rect.mem_set_unit]
  exact Iff.rfl

/-- Every index of the result is in the block of the point its row falls in: row r is in block r / 5000. -/
theorem covered (i : S8000000x9.Idx) : ∃ t : Fin cfg1.N, (cfg1.win 2).flush t = true ∧ i ∈ ((cfg1.win 2).blk t).view.set := by
  have hi0 : (i 0).val < 8000000 := (i 0).isLt
  have hi1 : (i 1).val < 9 := (i 1).isLt
  have hN : cfg1.N = 1600 := by decide
  let t : Fin cfg1.N := ⟨(i 0).val / 5000, by rw [hN]; omega⟩
  obtain ⟨-, -, -, -, e4, e5⟩ := index_facts t
  have e4' : win1_2.index t (0 : Fin 2) = (i 0).val / 5000 := e4
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 9 ≤ (i 1).val ∧ (i 1).val < win1_2.index t (1 : Fin 2) * 9 + 9; omega

/-- The result array after the region: the entrywise product of the two operand arrays as the region finds them. -/
theorem final (c : Dev nD) : (dat1 V c).arrAt 2 cfg1.N = prod (V c main_arg0) (V c main_v15) :=
  (dat1 V c).arrAt_eq_of_cover 2 (prod (V c main_arg0) (V c main_v15)) (fun t _ => flushed_eq V c t) covered

end Cert.KernelIdeal.Basis

end
-- ==== Proof.GatedRegion.lean ====
/-
  The third kernel region: the gated bond update.
  Each of the 320 grid points takes a block of 5000 rows of the [1600000, 9] summed bonds and of the [1600000, 64] edge
  features, the two whole [9, 64] weights and the two [1, 64] biases, and writes the block of the same rows of the
  [1600000, 64] result: at row r and feature j, with X the sum over k of bond (r, k) times the output weight (k, j) plus
  the output bias j, and Y the same with the gate weight and bias, the edge feature (r, j) plus X · logistic X · logistic Y.
  (Over the extended reals the bf16 casts are the identity.) The blocks tile the result, so the result array ends as that
  function of the six whole arrays as the region finds them.
-/
import proofs.«409169_j59442347376884_1_alg».proof.Proof.Gen.KernelIdeal.Frame
import Idealize.ShloMosaic.Lib.Pipeline.Value
import Idealize.ShloMosaic.Lib.ValueIdx
import proofs.«409169_j59442347376884_1_alg».proof.Proof.LibContract
set_option maxRecDepth 16384

noncomputable section

namespace Cert.KernelIdeal.Gated

open Idealize.ShloMosaic Idealize.ShloMosaic.TcCoe Idealize.ShloMosaic.ValueIdx Idealize.SL.Sem Cert.KernelIdeal Cert.KernelIdeal.Gen
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- One linear layer at row r, feature j: the sum over the nine channels plus the bias. -/
def lin {n : Nat} (nb : (⟨2, ![n, 9]⟩ : Shape).Idx → EReal) (w : S9x64.Idx → EReal) (b : S1x64.Idx → EReal)
    (r : Fin n) (j : Fin 64) : EReal :=
  (∑ k : Fin 9, nb (ix2 r k) * w (ix2 k j)) + b (ix2 0 j)

/-- The update at row r, feature j, for any number n of rows. -/
def updAt {n : Nat} (nb : (⟨2, ![n, 9]⟩ : Shape).Idx → EReal) (ef : (⟨2, ![n, 64]⟩ : Shape).Idx → EReal)
    (wo : S9x64.Idx → EReal) (bo : S1x64.Idx → EReal) (wg : S9x64.Idx → EReal) (bg : S1x64.Idx → EReal)
    (r : Fin n) (j : Fin 64) : EReal :=
  ef (ix2 r j) + (lin nb wo bo r j * Ideal.logistic (lin nb wo bo r j)) * Ideal.logistic (lin nb wg bg r j)

/-- The whole-array function. -/
def update (nb : S1600000x9.Idx → EReal) (ef : S1600000x64.Idx → EReal)
    (wo : S9x64.Idx → EReal) (bo : S1x64.Idx → EReal) (wg : S9x64.Idx → EReal) (bg : S1x64.Idx → EReal) : S1600000x64.Idx → EReal :=
  fun i => updAt nb ef wo bo wg bg (i 0) (i 1)

/-- The update reads its operands only along row r and column j: two settings that agree there give the same value. -/
theorem updAt_congr {n n' : Nat} (nb : (⟨2, ![n, 9]⟩ : Shape).Idx → EReal) (nb' : (⟨2, ![n', 9]⟩ : Shape).Idx → EReal)
    (ef : (⟨2, ![n, 64]⟩ : Shape).Idx → EReal) (ef' : (⟨2, ![n', 64]⟩ : Shape).Idx → EReal)
    (wo wo' : S9x64.Idx → EReal) (bo bo' : S1x64.Idx → EReal) (wg wg' : S9x64.Idx → EReal) (bg bg' : S1x64.Idx → EReal)
    (r : Fin n) (r' : Fin n') (j j' : Fin 64)
    (h0 : ∀ k, nb (ix2 r k) = nb' (ix2 r' k)) (h1 : ef (ix2 r j) = ef' (ix2 r' j'))
    (h2 : ∀ k, wo (ix2 k j) = wo' (ix2 k j')) (h3 : bo (ix2 0 j) = bo' (ix2 0 j'))
    (h4 : ∀ k, wg (ix2 k j) = wg' (ix2 k j')) (h5 : bg (ix2 0 j) = bg' (ix2 0 j')) :
    updAt nb ef wo bo wg bg r j = updAt nb' ef' wo' bo' wg' bg' r' j' := by
  unfold updAt lin
  simp only [h0, h1, h2, h3, h4, h5]

/-- One linear layer of the body at row p, feature q of the block. -/
theorem lin_eq (x0 : Vec Ideal S5000x9 .f32) (w : Vec Ideal S9x64 .f32) (b : Vec Ideal S1x64 .f32) (p : Fin 5000) (q : Fin 64) :
    addf (matmul (F := Ideal) dot_S5000x9_S9x64_S5000x64_1_0_0_1_n_n none
        (truncf .bf16 (shapeCast S5000x9 x0 shapeCasts_S5000x9_S5000x9) bitsLt_bf16_f32) (truncf .bf16 w bitsLt_bf16_f32) (constant S5000x64 .f32 0x00000000#32))
      (broadcastTo S5000x64 (shapeCast S1x64 b shapeCasts_S1x64_S1x64) broadcasts_S1x64_S5000x64) (ix2 p q)
    = lin x0 w b p q := by
  unfold lin
  show matmul (F := Ideal) dot_S5000x9_S9x64_S5000x64_1_0_0_1_n_n none
        (truncf .bf16 (shapeCast S5000x9 x0 shapeCasts_S5000x9_S5000x9) bitsLt_bf16_f32) (truncf .bf16 w bitsLt_bf16_f32) (constant S5000x64 .f32 0x00000000#32) (ix2 p q)
      + broadcastTo S5000x64 (shapeCast S1x64 b shapeCasts_S1x64_S1x64) broadcasts_S1x64_S5000x64 (ix2 p q) = _
  rw [Cert.LibContract.matmul_plain _ rfl rfl rfl rfl rfl rfl, shapeCast_self, shapeCast_self,
    broadcastTo_apply b broadcasts_S1x64_S5000x64 (ix2 p q) (ix2 0 q) (fun a => by
      match a with
      | ⟨0, _⟩ => rfl
      | ⟨1, _⟩ => rfl)]
  rfl

/-- The body's stored value at row p, feature q of its block is the update of the loaded blocks there. -/
theorem body_eq (x0 : Vec Ideal S5000x9 .f32) (wo wg : Vec Ideal S9x64 .f32) (bo bg : Vec Ideal S1x64 .f32) (ef : Vec Ideal S5000x64 .f32)
    (p : Fin 5000) (q : Fin 64) :
    k2_pay1 (F := Ideal) x0 wo wg bo bg ef (ix2 p q) = updAt x0 ef wo bo wg bg p q := by
  unfold k2_pay1 updAt
  rw [← lin_eq x0 wo bo p q, ← lin_eq x0 wg bg p q]
  rfl

/-- At point t the bond, edge-feature and result windows sit at block row t, the weights and biases at their one block. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the update of the six arrays. -/
theorem flushed_eq (c : Dev nD) (t : Fin cfg2.N) :
    (dat2 V c).flushed 6 t = ((cfg2.win 6).blk t).view.read (Elt Ideal)
      (update (V c main_v19) (V c main_arg3) (V c main_arg8) (V c main_v20) (V c main_arg6) (V c main_v21)) := by
  show (cfg2.win 6).cut (grid2.coords t) ((dat2 V c).after 6 t) = _
  rw [after2_6]
  unfold out2_6
  rw [View.canon_unit_zero zeros]
  simp only [View.ld_unit_zero (S := S5000x9) zeros, View.ld_unit_zero (S := S5000x64) zeros, View.ld_unit_zero (S := S9x64) zeros, View.ld_unit_zero (S := S1x64) zeros]
  obtain ⟨e0, e1, e2, e3, e4, e5, e6, e7, e8, e9, e10, e11, e12, e13⟩ := index_facts t
  funext j
  obtain ⟨p, q, rfl⟩ : ∃ (p : Fin 5000) (q : Fin 64), j = ix2 p q := ⟨j 0, j 1, eq_ix2 j⟩
  refine (body_eq (iblk2 V c 0 t) (iblk2 V c 2 t) (iblk2 V c 4 t) (iblk2 V c 3 t) (iblk2 V c 5 t) (iblk2 V c 1 t) p q).trans ?_
  show updAt (fun y => V c main_v19 (((cfg2.win 0).blk t).view.emb y)) (fun y => V c main_arg3 (((cfg2.win 1).blk t).view.emb y))
      (fun y => V c main_arg8 (((cfg2.win 2).blk t).view.emb y)) (fun y => V c main_v20 (((cfg2.win 3).blk t).view.emb y))
      (fun y => V c main_arg6 (((cfg2.win 4).blk t).view.emb y)) (fun y => V c main_v21 (((cfg2.win 5).blk t).view.emb y)) p q
    = updAt (V c main_v19) (V c main_arg3) (V c main_arg8) (V c main_v20) (V c main_arg6) (V c main_v21)
        ((((cfg2.win 6).blk t).view.emb (ix2 p q)) 0) ((((cfg2.win 6).blk t).view.emb (ix2 p q)) 1)
  have hnb (k : Fin 9) : ((cfg2.win 0).blk t).view.emb (ix2 p k)
      = ix2 ((((cfg2.win 6).blk t).view.emb (ix2 p q)) 0) k := by
    funext a; apply Fin.ext
    match a with
    | ⟨0, _⟩ => show win2_0.index t (0 : Fin 2) * 5000 + 1 * p.val = win2_6.index t (0 : Fin 2) * 5000 + 1 * p.val; omega
    | ⟨1, _⟩ => show win2_0.index t (1 : Fin 2) * 9 + 1 * k.val = k.val; omega
  have hef : ((cfg2.win 1).blk t).view.emb (ix2 p q)
      = ix2 ((((cfg2.win 6).blk t).view.emb (ix2 p q)) 0) ((((cfg2.win 6).blk t).view.emb (ix2 p q)) 1) := by
    funext a; apply Fin.ext
    match a with
    | ⟨0, _⟩ => show win2_1.index t (0 : Fin 2) * 5000 + 1 * p.val = win2_6.index t (0 : Fin 2) * 5000 + 1 * p.val; omega
    | ⟨1, _⟩ => show win2_1.index t (1 : Fin 2) * 64 + 1 * q.val = win2_6.index t (1 : Fin 2) * 64 + 1 * q.val; omega
  have hwo (k : Fin 9) : ((cfg2.win 2).blk t).view.emb (ix2 k q)
      = ix2 k ((((cfg2.win 6).blk t).view.emb (ix2 p q)) 1) := by
    funext a; apply Fin.ext
    match a with
    | ⟨0, _⟩ => show win2_2.index t (0 : Fin 2) * 9 + 1 * k.val = k.val; omega
    | ⟨1, _⟩ => show win2_2.index t (1 : Fin 2) * 64 + 1 * q.val = win2_6.index t (1 : Fin 2) * 64 + 1 * q.val; omega
  have hbo : ((cfg2.win 3).blk t).view.emb (ix2 0 q)
      = ix2 0 ((((cfg2.win 6).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_6.index t (1 : Fin 2) * 64 + 1 * q.val; omega
  have hwg (k : Fin 9) : ((cfg2.win 4).blk t).view.emb (ix2 k q)
      = ix2 k ((((cfg2.win 6).blk t).view.emb (ix2 p q)) 1) := by
    funext a; apply Fin.ext
    match a with
    | ⟨0, _⟩ => show win2_4.index t (0 : Fin 2) * 9 + 1 * k.val = k.val; omega
    | ⟨1, _⟩ => show win2_4.index t (1 : Fin 2) * 64 + 1 * q.val = win2_6.index t (1 : Fin 2) * 64 + 1 * q.val; omega
  have hbg : ((cfg2.win 5).blk t).view.emb (ix2 0 q)
      = ix2 0 ((((cfg2.win 6).blk t).view.emb (ix2 p q)) 1) := by
    funext a; apply Fin.ext
    match a with
    | ⟨0, _⟩ => show win2_5.index t (0 : Fin 2) * 1 + 1 * 0 = 0; omega
    | ⟨1, _⟩ => show win2_5.index t (1 : Fin 2) * 64 + 1 * q.val = win2_6.index t (1 : Fin 2) * 64 + 1 * q.val; omega
  exact updAt_congr _ _ _ _ _ _ _ _ _ _ _ _ _ _ _ _
    (fun k => congrArg (V c main_v19) (hnb k)) (congrArg (V c main_arg3) hef)
    (fun k => congrArg (V c main_arg8) (hwo k)) (congrArg (V c main_v20) hbo)
    (fun k => congrArg (V c main_arg6) (hwg k)) (congrArg (V c main_v21) hbg)

/-- An index of the result is in point t's block iff each coordinate is in the block's range on its axis. -/
theorem mem_block (t : Fin cfg2.N) (i : S1600000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v22).slice (win2_6.rect t)).set ↔ _
  rw [View.set_slice_whole, Rect.mem_set_unit]
  exact Iff.rfl

/-- Every index of the result is in the block of the point its row falls in: row r is in block r / 5000. -/
theorem covered (i : S1600000x64.Idx) : ∃ t : Fin cfg2.N, (cfg2.win 6).flush t = true ∧ i ∈ ((cfg2.win 6).blk t).view.set := by
  have hi0 : (i 0).val < 1600000 := (i 0).isLt
  have hi1 : (i 1).val < 64 := (i 1).isLt
  have hN : cfg2.N = 320 := by decide
  let t : Fin cfg2.N := ⟨(i 0).val / 5000, by rw [hN]; omega⟩
  obtain ⟨-, -, -, -, -, -, -, -, -, -, -, -, e12, e13⟩ := index_facts t
  have e12' : win2_6.index t (0 : Fin 2) = (i 0).val / 5000 := e12
  refine ⟨t, flush2_6 t, ?_⟩
  rw [mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The result array after the region: the update of the six arrays as the region finds them. -/
theorem final (c : Dev nD) : (dat2 V c).arrAt 6 cfg2.N
    = update (V c main_v19) (V c main_arg3) (V c main_arg8) (V c main_v20) (V c main_arg6) (V c main_v21) :=
  (dat2 V c).arrAt_eq_of_cover 6 _ (fun t _ => flushed_eq V c t) covered

end Cert.KernelIdeal.Gated

end
-- ==== Proof.KernelValue.lean ====
/-
  The kernel program's result as one function of its arguments.
  Between the launch and the return the buffers pass six boundaries: the host operations before each of the three kernel
  regions, and the regions. An argument buffer no host operation writes and no region has among its arrays is, at
  every boundary, what it was at launch. The first region leaves the atom gates (a function of the node features, the
  atom weight and the reshaped atom bias); the host then wraps negative indices and gathers, twice, to pick for each
  triple the gate row of its end atom; the second region multiplies the three-body basis by the gathered rows; the host
  sums the products into their segments; the third region applies the gated update to the sums and the edge features.
-/
import proofs.«409169_j59442347376884_1_alg».proof.Proof.KernelRun
import proofs.«409169_j59442347376884_1_alg».proof.Proof.AtomsRegion
import proofs.«409169_j59442347376884_1_alg».proof.Proof.BasisRegion
import proofs.«409169_j59442347376884_1_alg».proof.Proof.GatedRegion
import Idealize.ShloMosaic.Lib.StableHlo.Run

set_option maxRecDepth 16384

noncomputable section

namespace Cert.KernelIdeal.Whole

open Idealize.ShloMosaic Idealize.ShloMosaic.TcCoe Idealize.SL.Sem Cert.KernelIdeal Cert.KernelIdeal.Gen
open Idealize.ShloMosaic.StableHlo (after_of_writes_sub)

/-! ## The host's operations between the regions, as functions -/

/-- An index into the 1600000 bonds, a negative one counted from the end. -/
def wrapBond (a12 : (⟨S8000000, .i32⟩ : BufTy).Contents (Elt Ideal)) : (⟨S8000000, .i32⟩ : BufTy).Contents (Elt Ideal) :=
  select (cmpi .slt a12 (broadcastInDim S8000000 ![] bcast_S_S8000000 (constantI S_ 32 0#32)))
    (addi a12 (broadcastInDim S8000000 ![] bcast_S_S8000000 (constantI S_ 32 1600000#32))) a12

/-- The end atom of each triple's destination bond. -/
def endAtom (a10 : (⟨S1600000, .i32⟩ : BufTy).Contents (Elt Ideal)) (a12 : (⟨S8000000, .i32⟩ : BufTy).Contents (Elt Ideal)) : (⟨S8000000, .i32⟩ : BufTy).Contents (Elt Ideal) :=
  Host.gather gather_S1600000_S8000000x1_S8000000_n_0_n_n_0_1_1 a10
    (broadcastInDim S8000000x1 ![0] bcast_S8000000_S8000000x1_0 (wrapBond a12))

/-- The same as a column of row positions among the 50000 atoms, a negative one counted from the end. -/
def endAtomRows (a10 : (⟨S1600000, .i32⟩ : BufTy).Contents (Elt Ideal)) (a12 : (⟨S8000000, .i32⟩ : BufTy).Contents (Elt Ideal)) : (⟨S8000000x1, .i32⟩ : BufTy).Contents (Elt Ideal) :=
  broadcastInDim S8000000x1 ![0] bcast_S8000000_S8000000x1_0
    (select (cmpi .slt (endAtom a10 a12) (broadcastInDim S8000000 ![] bcast_S_S8000000 (constantI S_ 32 0#32)))
      (addi (endAtom a10 a12) (broadcastInDim S8000000 ![] bcast_S_S8000000 (constantI S_ 32 50000#32))) (endAtom a10 a12))

/-- Each triple's gate row: the rows of the atom gates at the end atoms. -/
def gateRows (atoms : (⟨S50000x9, .f32⟩ : BufTy).Contents (Elt Ideal)) (a10 : (⟨S1600000, .i32⟩ : BufTy).Contents (Elt Ideal)) (a12 : (⟨S8000000, .i32⟩ : BufTy).Contents (Elt Ideal)) : (⟨S8000000x9, .f32⟩ : BufTy).Contents (Elt Ideal) :=
  Host.gather gather_S50000x9_S8000000x1_S8000000x9_1_0_n_n_0_1_19 atoms (endAtomRows a10 a12)

/-- The per-triple rows summed into their segments, from zeros. -/
def segmentSum (rows : (⟨S8000000x9, .f32⟩ : BufTy).Contents (Elt Ideal)) (a13 : (⟨S8000000, .i32⟩ : BufTy).Contents (Elt Ideal)) : (⟨S1600000x9, .f32⟩ : BufTy).Contents (Elt Ideal) :=
  Host.scatterAdd (F := Ideal) scatter_S1600000x9_S8000000x1_S8000000x9_1_0_0_1
    (broadcastInDim S1600000x9 ![] bcast_S_S1600000x9 (constant (F := Ideal) S_ .f32 0x00000000#32))
    (broadcastInDim S8000000x1 ![0] bcast_S8000000_S8000000x1_0 a13) rows

/-! ## What each stretch of host operations writes -/

section Stretches
variable {F : FTy → Type} [FloatOps F]

abbrev written0 : List (Ref sig .tc) := [main_v0]
abbrev written1 : List (Ref sig .tc) :=
  [main_c, main_v2, main_v3, main_c_0, main_v4, main_v5, main_v6, main_v7, main_v8, main_c_1, main_v9, main_v10, main_c_2,
    main_v11, main_v12, main_v13, main_v14, main_v15]
abbrev written2 : List (Ref sig .tc) := [main_cst, main_v17, main_v18, main_v19, main_v20, main_v21]

theorem writes0 : (hostOps0 : List (HloOp τ sig (Elt F))).Forall fun op => op.writes ⊆ (written0.map (Proc.devRef (τ := τ) .tc)).toFinset := by
  simp only [hostOps0, List.Forall, StableHlo.reshape_writes, Finset.singleton_subset_iff, List.mem_toFinset, List.mem_map]
  exact ⟨_, by decide, rfl⟩

theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    Finset.singleton_subset_iff, List.mem_toFinset, List.mem_map]
  repeat' apply And.intro
  all_goals exact ⟨_, by decide, rfl⟩

theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.ternary_writes, StableHlo.reshape_writes,
    Finset.singleton_subset_iff, List.mem_toFinset, List.mem_map]
  repeat' apply And.intro
  all_goals exact ⟨_, by decide, rfl⟩

end Stretches

variable (m : (ℓ : Loc nD τ sig) → Buf (Elt Ideal) ℓ) (ρ : Dev nD → PrngReg)

/-! ## A buffer nothing writes, boundary by boundary -/

theorem W1_kept (c : Dev nD) (r : Ref sig .tc) (h0 : r ∉ written0) :
    W1 m ρ c (Proc.devRef .tc r) = m ((c : Thread nD τ).loc r) :=
  after_of_writes_sub hostOps0 (W0 m ρ c) writes0 h0

theorem W2_kept (c : Dev nD) (r : Ref sig .tc) (h0 : r ∉ written0) (a0 : ∀ w, Pipeline.arrRef spec0 w ≠ r) :
    W2 m ρ c (Proc.devRef .tc r) = m ((c : Thread nD τ).loc r) :=
  (W2_of_ne m ρ c r a0).trans (W1_kept m ρ c r h0)

theorem W3_kept (c : Dev nD) (r : Ref sig .tc) (h0 : r ∉ written0) (a0 : ∀ w, Pipeline.arrRef spec0 w ≠ r) (h1 : r ∉ written1) :
    W3 m ρ c (Proc.devRef .tc r) = m ((c : Thread nD τ).loc r) :=
  (after_of_writes_sub hostOps1 (W2 m ρ c) writes1 h1).trans (W2_kept m ρ c r h0 a0)

theorem W4_kept (c : Dev nD) (r : Ref sig .tc) (h0 : r ∉ written0) (a0 : ∀ w, Pipeline.arrRef spec0 w ≠ r) (h1 : r ∉ written1)
    (a1 : ∀ w, Pipeline.arrRef spec1 w ≠ r) : W4 m ρ c (Proc.devRef .tc r) = m ((c : Thread nD τ).loc r) :=
  (W4_of_ne m ρ c r a1).trans (W3_kept m ρ c r h0 a0 h1)

theorem W5_kept (c : Dev nD) (r : Ref sig .tc) (h0 : r ∉ written0) (a0 : ∀ w, Pipeline.arrRef spec0 w ≠ r) (h1 : r ∉ written1)
    (a1 : ∀ w, Pipeline.arrRef spec1 w ≠ r) (h2 : r ∉ written2) : W5 m ρ c (Proc.devRef .tc r) = m ((c : Thread nD τ).loc r) :=
  (after_of_writes_sub hostOps2 (W4 m ρ c) writes2 h2).trans (W4_kept m ρ c r h0 a0 h1 a1)

/-! ## The first region and what follows it -/

/-- The atom gates, of the launch contents. -/
def atoms (c : Dev nD) : (⟨S50000x9, .f32⟩ : BufTy).Contents (Elt Ideal) :=
  Atoms.gates (m ((c : Thread nD τ).loc main_arg2)) (m ((c : Thread nD τ).loc main_arg4)) (shapeCast S1x9 (m ((c : Thread nD τ).loc main_arg5)) shapeCasts_S9_S1x9)

/-- At the first region's entry the reshaped bias is the launch bias at shape [1, 9]. -/
theorem V1_bias (c : Dev nD) : V1 m ρ c main_v0 = shapeCast S1x9 (m ((c : Thread nD τ).loc main_arg5)) shapeCasts_S9_S1x9 := by
  show StableHlo.after hostOps0 (W0 m ρ c) (Proc.devRef .tc main_v0) = _
  after_results <;> rfl

/-- At the first region's exit its result array holds the atom gates. -/
theorem W2_atoms (c : Dev nD) : W2 m ρ c (Proc.devRef .tc main_v1) = atoms m c := by
  refine (W2_arr m ρ c 3).trans ((Atoms.final (V1 m ρ) c).trans ?_)
  unfold atoms
  rw [V1_bias m ρ c, show V1 m ρ c main_arg2 = (m ((c : Thread nD τ).loc main_arg2)) from W1_kept m ρ c main_arg2 (by decide),
    show V1 m ρ c main_arg4 = (m ((c : Thread nD τ).loc main_arg4)) from W1_kept m ρ c main_arg4 (by decide)]

/-- At the second region's entry the gathered operand holds each triple's gate row. -/
theorem V3_rows (c : Dev nD) : V3 m ρ c main_v15 = gateRows (atoms m c) (m ((c : Thread nD τ).loc main_arg10)) (m ((c : Thread nD τ).loc main_arg12)) := by
  have e : StableHlo.after hostOps1 (W2 m ρ c) (Proc.devRef .tc main_v15)
      = gateRows (W2 m ρ c (Proc.devRef .tc main_v1)) (W2 m ρ c (Proc.devRef .tc main_arg10)) (W2 m ρ c (Proc.devRef .tc main_arg12)) := by
    after_results <;> rfl
  refine e.trans ?_
  rw [W2_atoms m ρ c, W2_kept m ρ c main_arg10 (by decide) (by decide), W2_kept m ρ c main_arg12 (by decide) (by decide)]

/-! ## The second region and what follows it -/

/-- The basis scaled by the gate rows, of the launch contents. -/
def scaled (c : Dev nD) : (⟨S8000000x9, .f32⟩ : BufTy).Contents (Elt Ideal) :=
  Basis.prod (m ((c : Thread nD τ).loc main_arg0)) (gateRows (atoms m c) (m ((c : Thread nD τ).loc main_arg10)) (m ((c : Thread nD τ).loc main_arg12)))

/-- At the second region's exit its result array holds the scaled basis. -/
theorem W4_scaled (c : Dev nD) : W4 m ρ c (Proc.devRef .tc main_v16) = scaled m c := by
  refine (W4_arr m ρ c 2).trans ((Basis.final (V3 m ρ) c).trans ?_)
  unfold scaled
  rw [V3_rows m ρ c, show V3 m ρ c main_arg0 = (m ((c : Thread nD τ).loc main_arg0)) from W3_kept m ρ c main_arg0 (by decide) (by decide) (by decide)]

/-- At the third region's entry the summed bonds are the scaled basis summed into its segments. -/
theorem V5_bonds (c : Dev nD) : V5 m ρ c main_v19 = segmentSum (scaled m c) (m ((c : Thread nD τ).loc main_arg13)) := by
  have e : StableHlo.after hostOps2 (W4 m ρ c) (Proc.devRef .tc main_v19)
      = segmentSum (W4 m ρ c (Proc.devRef .tc main_v16)) (W4 m ρ c (Proc.devRef .tc main_arg13)) := by
    after_results <;> rfl
  refine e.trans ?_
  rw [W4_scaled m ρ c, W4_kept m ρ c main_arg13 (by decide) (by decide) (by decide) (by decide)]

/-- The two reshaped biases of the third region are the launch biases at shape [1, 64]. -/
theorem V5_outBias (c : Dev nD) : V5 m ρ c main_v20 = shapeCast S1x64 (m ((c : Thread nD τ).loc main_arg9)) shapeCasts_S64_S1x64 := by
  have e : StableHlo.after hostOps2 (W4 m ρ c) (Proc.devRef .tc main_v20)
      = shapeCast S1x64 (W4 m ρ c (Proc.devRef .tc main_arg9)) shapeCasts_S64_S1x64 := by
    after_results <;> rfl
  refine e.trans ?_
  rw [W4_kept m ρ c main_arg9 (by decide) (by decide) (by decide) (by decide)]

theorem V5_gateBias (c : Dev nD) : V5 m ρ c main_v21 = shapeCast S1x64 (m ((c : Thread nD τ).loc main_arg7)) shapeCasts_S64_S1x64 := by
  have e : StableHlo.after hostOps2 (W4 m ρ c) (Proc.devRef .tc main_v21)
      = shapeCast S1x64 (W4 m ρ c (Proc.devRef .tc main_arg7)) shapeCasts_S64_S1x64 := by
    after_results <;> rfl
  refine e.trans ?_
  rw [W4_kept m ρ c main_arg7 (by decide) (by decide) (by decide) (by decide)]

/-! ## The third region: the result -/

/-- The program's result, of the launch contents. -/
def result (c : Dev nD) : (⟨S1600000x64, .f32⟩ : BufTy).Contents (Elt Ideal) :=
  Gated.update (segmentSum (scaled m c) (m ((c : Thread nD τ).loc main_arg13))) (m ((c : Thread nD τ).loc main_arg3)) (m ((c : Thread nD τ).loc main_arg8)) (shapeCast S1x64 (m ((c : Thread nD τ).loc main_arg9)) shapeCasts_S64_S1x64)
    (m ((c : Thread nD τ).loc main_arg6)) (shapeCast S1x64 (m ((c : Thread nD τ).loc main_arg7)) shapeCasts_S64_S1x64)

/-- At the last boundary the result array holds the result. -/
theorem W6_result (c : Dev nD) : W6 m ρ c (Proc.devRef .tc main_v22) = result m c := by
  refine (W6_arr m ρ c 6).trans ((Gated.final (V5 m ρ) c).trans ?_)
  unfold result
  rw [V5_bonds m ρ c, V5_outBias m ρ c, V5_gateBias m ρ c,
    show V5 m ρ c main_arg3 = (m ((c : Thread nD τ).loc main_arg3)) from W5_kept m ρ c main_arg3 (by decide) (by decide) (by decide) (by decide) (by decide),
    show V5 m ρ c main_arg8 = (m ((c : Thread nD τ).loc main_arg8)) from W5_kept m ρ c main_arg8 (by decide) (by decide) (by decide) (by decide) (by decide),
    show V5 m ρ c main_arg6 = (m ((c : Thread nD τ).loc main_arg6)) from W5_kept m ρ c main_arg6 (by decide) (by decide) (by decide) (by decide) (by decide)]

/-- Every weakly fair execution of the kernel program terminates, nothing faulting, with the result array at `result`
    of the launch contents and the argument arrays as launched. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W6_result m ρ c), (h c).2⟩) (Run.run_named m ρ)

end Cert.KernelIdeal.Whole

end
-- ==== Proof.Bridge.lean ====
/-
  The reference's result is the kernel program's result.
  The reference computes, on the host: the atom gates as 1 / (1 + exp (-(node features · atom weight + bias))); the same
  index wraps, gathers and segment sum as the kernel program; and the update as edge feature + silu (X) · sigmoid (Y) with
  X and Y the summed bonds times the output and gate weights plus their biases, the sigmoids again spelt
  1 / (1 + exp (-x)). Over the extended reals a host contraction read at (r, j) is the sum over k of the products, which
  is what the kernel's matrix unit accumulates into zeros; the quotient 1 / (1 + exp (-x)) is the logistic function by
  definition; a bias laid along every row reads its column entry whether it was reshaped to one row or broadcast. The
  gathers and the segment sum are the same operations on the same operands on both sides, so they are carried as they
  are.
-/
import proofs.«409169_j59442347376884_1_alg».proof.Proof.KernelValue
import proofs.«409169_j59442347376884_1_alg».proof.Proof.Gen.ReferenceIdeal.Run
import proofs.«409169_j59442347376884_1_alg».proof.Proof.LibContract
import Idealize.ShloMosaic.Lib.IdealHost
import Idealize.ShloMosaic.Lib.KernelVsHost
import Idealize.ShloMosaic.Lib.Pipeline.Value

set_option maxRecDepth 16384

noncomputable section

namespace Cert.ReferenceIdeal.Spelled

open Idealize.ShloMosaic Idealize.ShloMosaic.TcCoe Idealize.ShloMosaic.ValueIdx Idealize.SL.Sem Cert.ReferenceIdeal
open Cert.ReferenceIdeal.Facts₀ Cert.ReferenceIdeal.Facts
open scoped BigOperators

/-! ## The reference's result, piece by piece -/

/-- The host's sigmoid of an array of any shape: 1 / (1 + exp (-x)), the ones scalar constants broadcast. -/
def sigmoid {T : Shape} (h : S_.BroadcastsInDim T (![] : Fin 0 → Fin T.rank)) (x : FVec Ideal T .f32) : FVec Ideal T .f32 :=
  Host.divf (broadcastInDim T ![] h (constant S_ .f32 0x3F800000#32))
    (addf (broadcastInDim T ![] h (constant S_ .f32 0x3F800000#32)) (Host.exp (Host.negf x)))

/-- The atom gates. -/
def atoms (a2 : FVec Ideal S50000x64 .f32) (a4 : FVec Ideal S64x9 .f32) (a5 : FVec Ideal S9 .f32) : FVec Ideal S50000x9 .f32 :=
  sigmoid bcast_S_S50000x9 (addf (Host.dotGeneral dot_S50000x64_S64x9_S50000x9_1_0_0_1_n_n none a2 a4)
    (broadcastInDim S50000x9 ![0, 1] bcast_S1x9_S50000x9_0_1 (broadcastInDim S1x9 ![1] bcast_S9_S1x9_1 a5)))

/-- An index into the 1600000 bonds, a negative one counted from the end. -/
def wrapBond (a12 : IVec S8000000 32) : IVec S8000000 32 :=
  select (cmpi .slt a12 (broadcastInDim S8000000 ![] bcast_S_S8000000 (constantI S_ 32 0#32)))
    (addi a12 (broadcastInDim S8000000 ![] bcast_S_S8000000 (constantI S_ 32 1600000#32))) a12

/-- The end atom of each triple's destination bond. -/
def endAtom (a10 : IVec S1600000 32) (a12 : IVec S8000000 32) : IVec S8000000 32 :=
  Host.gather gather_S1600000_S8000000x1_S8000000_n_0_n_n_0_1_1 a10
    (broadcastInDim S8000000x1 ![0] bcast_S8000000_S8000000x1_0 (wrapBond a12))

/-- Each triple's gate row. -/
def gateRows (gates : FVec Ideal S50000x9 .f32) (a10 : IVec S1600000 32) (a12 : IVec S8000000 32) : FVec Ideal S8000000x9 .f32 :=
  Host.gather gather_S50000x9_S8000000x1_S8000000x9_1_0_n_n_0_1_19 gates
    (broadcastInDim S8000000x1 ![0] bcast_S8000000_S8000000x1_0
      (select (cmpi .slt (endAtom a10 a12) (broadcastInDim S8000000 ![] bcast_S_S8000000 (constantI S_ 32 0#32)))
        (addi (endAtom a10 a12) (broadcastInDim S8000000 ![] bcast_S_S8000000 (constantI S_ 32 50000#32))) (endAtom a10 a12)))

/-- The per-triple rows summed into their segments, from zeros. -/
def segmentSum (rows : FVec Ideal S8000000x9 .f32) (a13 : IVec S8000000 32) : FVec Ideal S1600000x9 .f32 :=
  Host.scatterAdd (F := Ideal) scatter_S1600000x9_S8000000x1_S8000000x9_1_0_0_1
    (broadcastInDim S1600000x9 ![] bcast_S_S1600000x9 (constant (F := Ideal) S_ .f32 0x00000000#32))
    (broadcastInDim S8000000x1 ![0] bcast_S8000000_S8000000x1_0 a13) rows

/-- One linear layer over the summed bonds. -/
def linear (nb : FVec Ideal S1600000x9 .f32) (w : FVec Ideal S9x64 .f32) (b : FVec Ideal S64 .f32) : FVec Ideal S1600000x64 .f32 :=
  addf (Host.dotGeneral dot_S1600000x9_S9x64_S1600000x64_1_0_0_1_n_n none nb w)
    (broadcastInDim S1600000x64 ![0, 1] bcast_S1x64_S1600000x64_0_1 (broadcastInDim S1x64 ![1] bcast_S64_S1x64_1 b))

/-- The gated update. -/
def update (nb : FVec Ideal S1600000x9 .f32) (a3 : FVec Ideal S1600000x64 .f32) (a8 : FVec Ideal S9x64 .f32) (a9 : FVec Ideal S64 .f32)
    (a6 : FVec Ideal S9x64 .f32) (a7 : FVec Ideal S64 .f32) : FVec Ideal S1600000x64 .f32 :=
  addf a3 (mulf (mulf (linear nb a8 a9) (sigmoid bcast_S_S1600000x64 (linear nb a8 a9))) (sigmoid bcast_S_S1600000x64 (linear nb a6 a7)))

/-- The reference's result term is these pieces composed. -/
theorem res_eq (m' : (ℓ : Loc nD τ sig) → Buf (Elt Ideal) ℓ) (c : Dev nD) :
    Value.res_main_v62 m' c
      = update (segmentSum (mulf (m' ((c.tc : Thread nD τ).loc main_arg0)) (gateRows (atoms (m' ((c.tc : Thread nD τ).loc main_arg2)) (m' ((c.tc : Thread nD τ).loc main_arg4)) (m' ((c.tc : Thread nD τ).loc main_arg5))) (m' ((c.tc : Thread nD τ).loc main_arg10)) (m' ((c.tc : Thread nD τ).loc main_arg12)))) (m' ((c.tc : Thread nD τ).loc main_arg13)))
          (m' ((c.tc : Thread nD τ).loc main_arg3)) (m' ((c.tc : Thread nD τ).loc main_arg8)) (m' ((c.tc : Thread nD τ).loc main_arg9)) (m' ((c.tc : Thread nD τ).loc main_arg6)) (m' ((c.tc : Thread nD τ).loc main_arg7)) := by
  unfold Value.res_main_v62
  rfl

/-! ## Reads at an index -/

/-- The host's sigmoid at an index is the logistic function of the entry. -/
theorem sigmoid_apply {T : Shape} (h : S_.BroadcastsInDim T (![] : Fin 0 → Fin T.rank)) (x : FVec Ideal T .f32) (i : T.Idx) :
    sigmoid h x i = Ideal.logistic (x i) := by
  unfold sigmoid
  rw [hostDivf_apply, addf_apply, broadcastInDim_scalar_apply, constant_apply, Ideal.ofBits_one_f32]
  rfl

/-- A vector of n entries, n not 1, made a one-row matrix and broadcast down m rows, read at (r, j), is entry j. -/
theorem rowBias_apply {m n : Nat} (hn : n ≠ 1) (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → EReal) (r : Fin m) (j : Fin n) :
    broadcastInDim ⟨2, ![m, n]⟩ ![0, 1] h2 (broadcastInDim ⟨2, ![1, n]⟩ ![1] h1 b) (ix2 r j) = b (ix1 j) := by
  rw [broadcastInDim_oneRow_apply]
  exact broadcastInDim_apply ![1] h1 b (ix2 (0 : Fin 1) j) (ix1 j) (fun a => by
    match a with
    | ⟨0, _⟩ => show j.val = if n = 1 then 0 else j.val; rw [if_neg hn])

/-- The same vector reshaped to one row, read at (0, j), is entry j. -/
theorem rowCast_apply {n : Nat} (h : (⟨1, ![n]⟩ : Shape).ShapeCasts ⟨2, ![1, n]⟩) (b : (⟨1, ![n]⟩ : Shape).Idx → EReal) (j : Fin n) :
    shapeCast ⟨2, ![1, n]⟩ b h (ix2 (0 : Fin 1) j) = b (ix1 j) :=
  shapeCast_apply b h (ix2 (0 : Fin 1) j) (ix1 j) (by
    rw [Shape.rowMajor_val_two, Shape.rowMajor_val_one]; show j.val = 0 * n + j.val; omega)

/-! ## The pieces are the kernel program's -/

/-- The atom gates are the first region's function of the same arrays, the bias reshaped to one row. -/
theorem atoms_eq (a2 : FVec Ideal S50000x64 .f32) (a4 : FVec Ideal S64x9 .f32) (a5 : FVec Ideal S9 .f32) :
    atoms a2 a4 a5 = Cert.KernelIdeal.Atoms.gates a2 a4 (shapeCast Cert.KernelIdeal.S1x9 a5 Cert.KernelIdeal.Facts₀.shapeCasts_S9_S1x9) := by
  funext i
  obtain ⟨r, j, rfl⟩ : ∃ (r : Fin 50000) (j : Fin 9), i = ix2 r j := ⟨i 0, i 1, eq_ix2 i⟩
  unfold atoms
  rw [sigmoid_apply, addf_apply, Cert.LibContract.dotGeneral_plain _ rfl rfl rfl rfl rfl rfl,
    rowBias_apply (by decide) bcast_S9_S1x9_1 bcast_S1x9_S50000x9_0_1 a5 r j]
  show _ = Cert.KernelIdeal.Atoms.gateAt a2 a4 _ r j
  unfold Cert.KernelIdeal.Atoms.gateAt
  rw [rowCast_apply]

/-- One linear layer at (r, j) is the third region's, the bias reshaped to one row. -/
theorem linear_apply (nb : FVec Ideal S1600000x9 .f32) (w : FVec Ideal S9x64 .f32) (b : FVec Ideal S64 .f32) (r : Fin 1600000) (j : Fin 64) :
    linear nb w b (ix2 r j)
      = Cert.KernelIdeal.Gated.lin nb w (shapeCast Cert.KernelIdeal.S1x64 b Cert.KernelIdeal.Facts₀.shapeCasts_S64_S1x64) r j := by
  unfold linear Cert.KernelIdeal.Gated.lin
  rw [addf_apply, Cert.LibContract.dotGeneral_plain _ rfl rfl rfl rfl rfl rfl,
    rowBias_apply (by decide) bcast_S64_S1x64_1 bcast_S1x64_S1600000x64_0_1 b r j, rowCast_apply]

/-- The gated update is the third region's function of the same arrays, the biases reshaped to one row. -/
theorem update_eq (nb : FVec Ideal S1600000x9 .f32) (a3 : FVec Ideal S1600000x64 .f32) (a8 : FVec Ideal S9x64 .f32) (a9 : FVec Ideal S64 .f32)
    (a6 : FVec Ideal S9x64 .f32) (a7 : FVec Ideal S64 .f32) :
    update nb a3 a8 a9 a6 a7
      = Cert.KernelIdeal.Gated.update nb a3 a8 (shapeCast Cert.KernelIdeal.S1x64 a9 Cert.KernelIdeal.Facts₀.shapeCasts_S64_S1x64)
          a6 (shapeCast Cert.KernelIdeal.S1x64 a7 Cert.KernelIdeal.Facts₀.shapeCasts_S64_S1x64) := by
  funext i
  obtain ⟨r, j, rfl⟩ : ∃ (r : Fin 1600000) (j : Fin 64), i = ix2 r j := ⟨i 0, i 1, eq_ix2 i⟩
  unfold update
  rw [addf_apply, mulf_apply, mulf_apply, sigmoid_apply, sigmoid_apply, linear_apply, linear_apply]
  rfl

/-- The gathered gate rows and the segment sum are the kernel program's own host operations. -/
theorem gateRows_eq (gates : FVec Ideal S50000x9 .f32) (a10 : IVec S1600000 32) (a12 : IVec S8000000 32) :
    gateRows gates a10 a12 = Cert.KernelIdeal.Whole.gateRows gates a10 a12 := rfl

theorem segmentSum_eq (rows : FVec Ideal S8000000x9 .f32) (a13 : IVec S8000000 32) :
    segmentSum rows a13 = Cert.KernelIdeal.Whole.segmentSum rows a13 := rfl

end Cert.ReferenceIdeal.Spelled

namespace Cert.Bridge

open Idealize.ShloMosaic Idealize.ShloMosaic.TcCoe Idealize.SL.Sem

/-- From memories that agree on the arguments the reference's result term is the kernel program's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v62 m' c = Cert.KernelIdeal.Whole.result m c := by
  rw [Cert.ReferenceIdeal.Spelled.res_eq m' c, h0, h2, h3, h4, h5, h6, h7, h8, h9, h10, h12, h13]
  unfold Cert.KernelIdeal.Whole.result Cert.KernelIdeal.Whole.scaled Cert.KernelIdeal.Whole.atoms
  rw [Cert.ReferenceIdeal.Spelled.update_eq, Cert.ReferenceIdeal.Spelled.atoms_eq, Cert.ReferenceIdeal.Spelled.gateRows_eq,
    Cert.ReferenceIdeal.Spelled.segmentSum_eq]
  rfl

end Cert.Bridge

end
-- ==== Proof.lean ====
/-
  The gated three-body bond update: three kernel regions among host gathers and a segment sum, against the same
  computation written with jnp.

  Over the extended reals both programs compute, for every edge r and feature j,
    edge_feat (r, j) + X · logistic X · logistic Y,
  with X = Σ_k bonds (r, k) · W_out (k, j) + b_out j and Y the same with W_gate and b_gate, where
  bonds = segment sum of three_basis · gates[end atom of the triple's destination bond] and
  gates (a, j) = logistic (Σ_k node_feat (a, k) · W_atom (k, j) + b_atom j).
  The kernel program computes the gates, the product and the update in three pipelined regions, block by block, with
  bf16 casts that are the identity here; the reference spells the logistic function 1 / (1 + exp (-x)). The index
  wraps, gathers and the segment sum are the same host operations in both programs.

  The frames of the two kernel programs are the generated ones; the reference's is its generated run with the result
  dropped; the idealized kernel program is the kernel program's own text read over the extended reals, so there is
  nothing to preserve; the value claim joins the kernel
  program's run, re-posted with its result array named, to the reference's run through `Cert.Bridge.result_eq`.
-/
import proofs.«409169_j59442347376884_1_alg».proof.Defs
import proofs.«409169_j59442347376884_1_alg».proof.Proof.Gen.Kernel
import proofs.«409169_j59442347376884_1_alg».proof.Proof.Gen.Kernel.Skeleton
import proofs.«409169_j59442347376884_1_alg».proof.Proof.Gen.Kernel.Launch
import proofs.«409169_j59442347376884_1_alg».proof.Proof.Gen.Kernel.Points
import proofs.«409169_j59442347376884_1_alg».proof.Proof.Gen.Kernel.Frame
import proofs.«409169_j59442347376884_1_alg».proof.Proof.Gen.KernelIdeal
import proofs.«409169_j59442347376884_1_alg».proof.Proof.Gen.KernelIdeal.Skeleton
import proofs.«409169_j59442347376884_1_alg».proof.Proof.Gen.KernelIdeal.Launch
import proofs.«409169_j59442347376884_1_alg».proof.Proof.Gen.KernelIdeal.Points
import proofs.«409169_j59442347376884_1_alg».proof.Proof.Gen.KernelIdeal.Frame
import proofs.«409169_j59442347376884_1_alg».proof.Proof.Gen.ReferenceIdeal
import proofs.«409169_j59442347376884_1_alg».proof.Proof.Gen.Pre_finite_inputs
import proofs.«409169_j59442347376884_1_alg».proof.Proof.Gen.ReferenceIdeal.Run
import proofs.«409169_j59442347376884_1_alg».proof.Proof.KernelValue
import proofs.«409169_j59442347376884_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the kernel program's result function of the (agreeing) arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  exact Cert.Bridge.result_eq m m' c h0 h2 h3 h4 h5 h6 h7 h8 h9 h10 h12 h13

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
